-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64 .f32) (main_arg10 : FVec F S128x64 .f32) (main_arg11 : FVec F S128x64 .f32) (main_arg12 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x64 .f32) (main_arg8 : FVec F S128x64 .f32) (main_arg9 : FVec F S64 .f32) (main_arg10 : FVec F S128x64 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S100000x64 .f32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S128x64 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S5000x64 : Shape := ⟨2, ![5000, 64]⟩

abbrev nBuf : Space → Nat
  | .hbm => 62
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x64, .f32⟩
  | .hbm, ⟨60, _⟩ => ⟨S1x64, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S128x64, .f32⟩
  | .local _ .vmem, ⟨17, _⟩ => ⟨S128x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg3) S5000x64.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v38) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S1600000, .f32⟩
  | .hbm, ⟨93, _⟩ => ⟨S_, .f32⟩
  | .hbm, ⟨94, _⟩ => ⟨S100000, .f32⟩
  | .hbm, ⟨95, _⟩ => ⟨S1600000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KHost.lean ====
import proofs.«124804_j24000277250672_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat Cfg Window)

variable {F : FTy → Type} [FloatOps F]

/-- The source-node column: a negative edge source is counted from the end (one wrap), then every edge's source
    stands as a one-entry row. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per destination node, the sum over its incoming edges of the source nodes' rows of `y`. -/
def rowSum (y : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 y (srcIdx src))

/-- Per destination node, its in-degree clamped below at one. -/
def degClamped (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The reciprocal of the clamped in-degree. -/
def invDeg (dst : (⟨S1600000, .i32⟩ : BufTy).Contents (Elt F)) : (⟨S100000, .f32⟩ : BufTy).Contents (Elt F) :=
  Host.divf (broadcastInDim S100000 ![] bcast_S_S100000 (constant S_ .f32 0x3F800000#32)) (degClamped dst)

/-- A per-node quantity repeated along every feature column. -/
def spread (d : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 d)

/-- The neighbour mean as this program forms it: the row sum times the reciprocal of the clamped in-degree. -/
def aggK (y : (⟨S100000x128, .f32⟩ : BufTy).Contents (Elt F)) (src dst : (⟨S1600000, .i32⟩ : BufTy).Contents (Elt F)) :
    (⟨S100000x128, .f32⟩ : BufTy).Contents (Elt F) :=
  mulf (rowSum y src dst) (spread (invDeg dst))

variable (m : (ℓ : Loc nD τ sig) → Buf (Elt F) ℓ) (ρ : Dev nD → PrngReg)

set_option maxHeartbeats 4000000 in
theorem V1_v7 (c : Dev nD) : V1 m ρ c main_v7 = invDeg (m ((c : Thread nD τ).loc main_arg2)) := by
  show StableHlo.after hostOps0 (W0 m ρ c) (Proc.devRef .tc main_v7) = _
  dsimp only [hostOps0]
  after_results_simp
  rfl

set_option maxHeartbeats 4000000 in
theorem V1_v20 (c : Dev nD) : V1 m ρ c main_v20
    = aggK (m ((c : Thread nD τ).loc main_arg0)) (m ((c : Thread nD τ).loc main_arg1)) (m ((c : Thread nD τ).loc main_arg2)) := by
  show StableHlo.after hostOps0 (W0 m ρ c) (Proc.devRef .tc main_v20) = _
  dsimp only [hostOps0]
  after_results_simp
  rfl

/-! ## The first host stretch: what the first region finds

No operation of the stretch writes an argument array, so each is found as launched. -/

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp <;> rfl

set_option maxHeartbeats 4000000 in
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results_simp <;> rfl

set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp <;> rfl

set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp <;> rfl

set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp <;> rfl

set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp <;> rfl

set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp <;> rfl

set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp <;> rfl

set_option maxHeartbeats 4000000 in
theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results_simp <;> rfl

set_option maxHeartbeats 4000000 in
theorem W1_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results_simp <;> rfl

set_option maxHeartbeats 4000000 in
theorem W1_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results_simp <;> rfl

set_option maxHeartbeats 4000000 in
theorem W1_arg11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results_simp <;> rfl

set_option maxHeartbeats 4000000 in
theorem W1_arg12 (c : Dev nD) : W1 m ρ c (Proc.devRef .tc main_arg12) = m ((c : Thread nD τ).loc main_arg12) := by
  show StableHlo.after hostOps0 (W0 m ρ c) (Proc.devRef .tc main_arg12) = _
  dsimp only [hostOps0]
  after_results_simp <;> rfl

/-- The bias row the first region reads is the bias vector laid out as one row. -/
theorem V1_v21_apply (c : Dev nD) (q : Fin 128) :
    V1 m ρ c main_v21 (ix2 0 q) = m ((c : Thread nD τ).loc main_arg6) (ix1 q) := by
  have e : V1 m ρ c main_v21 = shapeCast S1x128 (m ((c : Thread nD τ).loc main_arg6)) shapeCasts_S128_S1x128 := by
    show StableHlo.after hostOps0 (W0 m ρ c) (Proc.devRef .tc main_v21) = _
    dsimp only [hostOps0]
    after_results_simp
    rfl
  rw [e]
  refine (shapeCast_addUnit_apply (n := 1) ![128] _ _ (ix2 (0 : Fin 1) q)).trans ?_
  refine congrArg _ (funext fun a => ?_)
  match a with | ⟨0, _⟩ => rfl

/-! ## Between the regions

The first region writes only its own output array, so across it the argument arrays and the reciprocal in-degree
stay what the first stretch left; the second stretch then forms the hidden matrix's neighbour mean exactly as the
first formed the features'. -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)

theorem W2_v7 (c : Dev nD) : W2 m ρ c (Proc.devRef .tc main_v7) = invDeg (m ((c : Thread nD τ).loc main_arg2)) :=
  (W2_of_ne m ρ c main_v7 (by decide)).trans (V1_v7 m ρ c)

/-- The hidden matrix the second region reads is what the first region's write-backs left. -/
theorem W2_v22 (c : Dev nD) : W2 m ρ c (Proc.devRef .tc main_v22) = (dat0 (V1 m ρ) c).arrAt 5 cfg0.N :=
  W2_arr m ρ c 5

set_option maxHeartbeats 4000000 in
theorem V3_v22 (c : Dev nD) : V3 m ρ c main_v22 = (dat0 (V1 m ρ) c).arrAt 5 cfg0.N := by
  show StableHlo.after hostOps1 (W2 m ρ c) (Proc.devRef .tc main_v22) = _
  dsimp only [hostOps1]
  after_results_simp
  exact W2_v22 m ρ c

set_option maxHeartbeats 4000000 in
/-- The second region's neighbour mean is the neighbour mean of the hidden matrix. -/
theorem V3_v35 (c : Dev nD) : V3 m ρ c main_v35
    = aggK ((dat0 (V1 m ρ) c).arrAt 5 cfg0.N) (m ((c : Thread nD τ).loc main_arg1)) (m ((c : Thread nD τ).loc main_arg2)) := by
  show StableHlo.after hostOps1 (W2 m ρ c) (Proc.devRef .tc main_v35) = _
  dsimp only [hostOps1]
  after_results_simp
  rw [W2_arg1, W2_arg2, W2_v7, W2_v22]
  rfl

set_option maxHeartbeats 4000000 in
theorem V3_arg3 (c : Dev nD) : V3 m ρ c main_arg3 = m ((c : Thread nD τ).loc main_arg3) := by
  show StableHlo.after hostOps1 (W2 m ρ c) (Proc.devRef .tc main_arg3) = _
  dsimp only [hostOps1]
  after_results_simp
  exact W2_arg3 m ρ c

set_option maxHeartbeats 4000000 in
theorem V3_arg7 (c : Dev nD) : V3 m ρ c main_arg7 = m ((c : Thread nD τ).loc main_arg7) := by
  show StableHlo.after hostOps1 (W2 m ρ c) (Proc.devRef .tc main_arg7) = _
  dsimp only [hostOps1]
  after_results_simp
  exact W2_arg7 m ρ c

set_option maxHeartbeats 4000000 in
theorem V3_arg8 (c : Dev nD) : V3 m ρ c main_arg8 = m ((c : Thread nD τ).loc main_arg8) := by
  show StableHlo.after hostOps1 (W2 m ρ c) (Proc.devRef .tc main_arg8) = _
  dsimp only [hostOps1]
  after_results_simp
  exact W2_arg8 m ρ c

set_option maxHeartbeats 4000000 in
theorem V3_arg10 (c : Dev nD) : V3 m ρ c main_arg10 = m ((c : Thread nD τ).loc main_arg10) := by
  show StableHlo.after hostOps1 (W2 m ρ c) (Proc.devRef .tc main_arg10) = _
  dsimp only [hostOps1]
  after_results_simp
  exact W2_arg10 m ρ c

set_option maxHeartbeats 4000000 in
theorem V3_arg11 (c : Dev nD) : V3 m ρ c main_arg11 = m ((c : Thread nD τ).loc main_arg11) := by
  show StableHlo.after hostOps1 (W2 m ρ c) (Proc.devRef .tc main_arg11) = _
  dsimp only [hostOps1]
  after_results_simp
  exact W2_arg11 m ρ c

set_option maxHeartbeats 4000000 in
theorem V3_v36_apply (c : Dev nD) (q : Fin 64) :
    V3 m ρ c main_v36 (ix2 0 q) = m ((c : Thread nD τ).loc main_arg9) (ix1 q) := by
  have e : V3 m ρ c main_v36 = shapeCast S1x64 (m ((c : Thread nD τ).loc main_arg9)) shapeCasts_S64_S1x64 := by
    show StableHlo.after hostOps1 (W2 m ρ c) (Proc.devRef .tc main_v36) = _
    dsimp only [hostOps1]
    after_results_simp
    rw [W2_arg9]
    rfl
  rw [e]
  refine (shapeCast_addUnit_apply (n := 1) ![64] _ _ (ix2 (0 : Fin 1) q)).trans ?_
  refine congrArg _ (funext fun a => ?_)
  match a with | ⟨0, _⟩ => rfl

set_option maxHeartbeats 4000000 in
theorem V3_v37_apply (c : Dev nD) (q : Fin 64) :
    V3 m ρ c main_v37 (ix2 0 q) = m ((c : Thread nD τ).loc main_arg12) (ix1 q) := by
  have e : V3 m ρ c main_v37 = shapeCast S1x64 (m ((c : Thread nD τ).loc main_arg12)) shapeCasts_S64_S1x64 := by
    show StableHlo.after hostOps1 (W2 m ρ c) (Proc.devRef .tc main_v37) = _
    dsimp only [hostOps1]
    after_results_simp
    rw [W2_arg12]
    rfl
  rw [e]
  refine (shapeCast_addUnit_apply (n := 1) ![64] _ _ (ix2 (0 : Fin 1) q)).trans ?_
  refine congrArg _ (funext fun a => ?_)
  match a with | ⟨0, _⟩ => rfl

end Cert.KernelIdeal.Host

end
-- ==== Proof.Spec.lean ====
/-
  The mathematics both programs compute, as functions of whole arrays read entry by entry at the ideal values
  (extended reals, exact operations).

  One graph layer's affine part: for a node feature matrix `x`, a neighbour mean `agg` of the same shape, two
  weight matrices and a bias row,
      lin x agg ws wn b (r, q) = (Σ_k x(r,k)·ws(k,q) + Σ_k agg(r,k)·wn(k,q)) + b(q),
  with the grouping of the three summands exactly as both programs have it. The hidden layer clamps this below at
  the zero word's value; the sampled code is the mean branch plus noise times the exponential of the log-deviation
  branch, both branches affine parts over the SAME hidden matrix and neighbour mean.

  The one arithmetic law that separates the two programs is in the neighbour mean: one multiplies a row sum by the
  reciprocal `1 / d` of the clamped in-degree `d = max(deg, 1)`, the other divides the row sum by `d`. On the
  extended reals the quotient by a divisor other than zero is the product with its inverse, at the infinities too,
  so `a · (1 / d) = a / d` needs `d ≠ 0` and nothing else; and `d ≥ 1`.
-/
import Idealize.ShloMosaic.Lib.ValueIdx
import Idealize.ShloMosaic.PureOps.Ideal.Laws

noncomputable section

open scoped BigOperators

namespace Cert.Sage

open Idealize.ShloMosaic Idealize.ShloMosaic.ValueIdx

/-- A matrix of extended reals, indexed as the programs index rank-2 arrays. -/
abbrev Mat (a b : ℕ) : Type := (⟨2, ![a, b]⟩ : Shape).Idx → EReal

variable {M K N : ℕ}

/-- The affine part of one layer at entry `(r, q)`: self term plus neighbour term, then the bias. -/
def lin (x agg : Mat M K) (ws wn : Mat K N) (b : Fin N → EReal) : Mat M N :=
  fun i => ((∑ k : Fin K, x (ix2 (i 0) k) * ws (ix2 k (i 1))) + ∑ k : Fin K, agg (ix2 (i 0) k) * wn (ix2 k (i 1))) + b (i 1)

/-- The hidden layer: the affine part clamped below at the zero word's value. -/
def hidden (x agg : Mat M K) (ws wn : Mat K N) (b : Fin N → EReal) : Mat M N :=
  fun i => max (lin x agg ws wn b i) (Ideal.ofBits .f32 0x00000000#32)

/-- The sampled code: mean branch plus noise times the exponential of the log-deviation branch. -/
def sample (h agg : Mat M K) (ws1 wn1 : Mat K N) (b1 : Fin N → EReal) (ws2 wn2 : Mat K N) (b2 : Fin N → EReal)
    (noise : Mat M N) : Mat M N :=
  fun i => lin h agg ws1 wn1 b1 i + noise i * Ideal.exp (lin h agg ws2 wn2 b2 i)

theorem lin_apply (x agg : Mat M K) (ws wn : Mat K N) (b : Fin N → EReal) (r : Fin M) (q : Fin N) :
    lin x agg ws wn b (ix2 r q)
      = ((∑ k : Fin K, x (ix2 r k) * ws (ix2 k q)) + ∑ k : Fin K, agg (ix2 r k) * wn (ix2 k q)) + b q := rfl

theorem hidden_apply (x agg : Mat M K) (ws wn : Mat K N) (b : Fin N → EReal) (r : Fin M) (q : Fin N) :
    hidden x agg ws wn b (ix2 r q)
      = max (((∑ k : Fin K, x (ix2 r k) * ws (ix2 k q)) + ∑ k : Fin K, agg (ix2 r k) * wn (ix2 k q)) + b q)
          (Ideal.ofBits .f32 0x00000000#32) := rfl

theorem sample_apply (h agg : Mat M K) (ws1 wn1 : Mat K N) (b1 : Fin N → EReal) (ws2 wn2 : Mat K N) (b2 : Fin N → EReal)
    (noise : Mat M N) (r : Fin M) (q : Fin N) :
    sample h agg ws1 wn1 b1 ws2 wn2 b2 noise (ix2 r q)
      = (((∑ k : Fin K, h (ix2 r k) * ws1 (ix2 k q)) + ∑ k : Fin K, agg (ix2 r k) * wn1 (ix2 k q)) + b1 q)
        + noise (ix2 r q) * Ideal.exp
            (((∑ k : Fin K, h (ix2 r k) * ws2 (ix2 k q)) + ∑ k : Fin K, agg (ix2 r k) * wn2 (ix2 k q)) + b2 q) := rfl

/-- The product with the reciprocal is the quotient, for any divisor other than zero (the infinities included). -/
theorem mul_recip_eq_div (a d : EReal) (hd : d ≠ 0) : a * Ideal.div 1 d = Ideal.div a d := by
  rw [Ideal.div, if_neg hd, Ideal.div, if_neg hd, one_mul]

/-- The word of the float one denotes the real one. -/
theorem ofBits_one : Ideal.ofBits .f32 0x3F800000#32 = (1 : EReal) := by
  simp [Ideal.ofBits, Ideal.ieee, -EReal.coe_mul]; norm_num

/-- A quantity clamped below at one is not zero. -/
theorem max_one_ne_zero (x : EReal) : max x (Ideal.ofBits .f32 0x3F800000#32) ≠ 0 := by
  rw [ofBits_one]
  have h : (0 : EReal) < max x 1 := lt_of_lt_of_le zero_lt_one (le_max_right x 1)
  exact ne_of_gt h

end Cert.Sage

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KRegion0.lean ====
/-
  The first TensorCore region computes the hidden layer. Its grid has 20 points; point `t` holds rows
  `5000 t … 5000 t + 4999` of the node features and of the neighbour mean, the two 128 × 128 weight matrices and the
  1 × 128 bias row whole, and leaves in the output's block, at entry `(p, q)`,
      max ((Σ_k x(p,k)·ws(k,q) + Σ_k agg(p,k)·wn(k,q)) + b(0,q), 0-word),
  the narrowing of the operands to bf16 being the identity at the ideal values. Row `p` of block `t` is row
  `5000 t + p` of the arrays, so the block is block `t` of the hidden matrix of the whole arrays; the 20 blocks tile
  the 100000 rows, so after the last point the output array is that matrix.
-/
import proofs.«124804_j24000277250672_1_alg».proof.Proof.Gen.KernelIdeal.Frame
import proofs.«124804_j24000277250672_1_alg».proof.Proof.Spec
import proofs.«124804_j24000277250672_1_alg».proof.Proof.LibPlainDot
import Idealize.ShloMosaic.Lib.Pipeline.Value
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer access, as the constant function. -/
theorem zero_offsets : (![0, 0] : Fin 2 → Nat) = fun _ => 0 :=
  funext fun a => by match a with | ⟨0, _⟩ => rfl | ⟨1, _⟩ => rfl

/-- The body's arithmetic at entry `(p, q)` of a block of 5000 rows: both products into the zero accumulator are
    the sums over the 128 contracted positions, added, the bias row's entry `q` added, clamped below at the zero word. -/
theorem payload_apply (x agg : Vec Ideal S5000x128 .f32) (ws wn : Vec Ideal S128x128 .f32) (b : Vec Ideal S1x128 .f32)
    (p : Fin 5000) (q : Fin 128) :
    k0_pay1 (F := Ideal) x agg ws wn b (ix2 p q)
      = max (((∑ k : Fin 128, x (ix2 p k) * ws (ix2 k q)) + ∑ k : Fin 128, agg (ix2 p k) * wn (ix2 k q)) + b (ix2 (0 : Fin 1) q))
          (Ideal.ofBits .f32 0x00000000#32) := by
  unfold k0_pay1
  rw [maximumf_apply, addf_apply, addf_apply, broadcast_apply, shapeCast_self, shapeCast_self, broadcastTo_1b_ab_apply,
    Cert.PlainDot.matmul_zero_apply dot_S5000x128_S128x128_S5000x128_1_0_0_1_n_n rfl,
    Cert.PlainDot.matmul_zero_apply dot_S5000x128_S128x128_S5000x128_1_0_0_1_n_n rfl]
  rfl

/-- A block of the body's result is the hidden layer's rows: when row `p` of the two row blocks is row `r` of the
    feature matrix and of the neighbour mean, and the weight and bias blocks are the whole arrays, entry `(p, q)` of
    the payload is entry `(r, q)` of the hidden matrix. -/
theorem payload_eq_hidden (x agg : Vec Ideal S5000x128 .f32) (ws wn : Vec Ideal S128x128 .f32) (b : Vec Ideal S1x128 .f32)
    (X AGG : Cert.Sage.Mat 100000 128) (WS WN : Cert.Sage.Mat 128 128) (B : Cert.Sage.Mat 1 128)
    (r : Fin 100000) (p : Fin 5000) (q : Fin 128)
    (hx : ∀ k : Fin 128, x (ix2 p k) = X (ix2 r k)) (hagg : ∀ k : Fin 128, agg (ix2 p k) = AGG (ix2 r k))
    (hws : ws = WS) (hwn : wn = WN) (hb : b = B) :
    k0_pay1 (F := Ideal) x agg ws wn b (ix2 p q) = Cert.Sage.hidden X AGG WS WN (fun q => B (ix2 0 q)) (ix2 r q) := by
  rw [payload_apply, Cert.Sage.hidden_apply]
  subst hws hwn hb
  simp only [hx, hagg]

/-- At each of the 20 grid points `t` the row-blocked windows (features, neighbour mean, output) sit at block
    `(t, 0)` of their arrays, the weight and bias windows at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is block `t` of the hidden matrix of the region's input arrays: row `p` of the
    block is row `5000 t + p` of the feature matrix and of the neighbour mean, and the weight and bias blocks are
    their whole arrays. -/
theorem flushed_eq (c : Dev nD) (t : Fin cfg0.N) :
    (dat0 (F := Ideal) V c).flushed 5 t
      = ((cfg0.win 5).blk t).view.read (Elt Ideal)
          (Cert.Sage.hidden (V c main_arg0) (V c main_v20) (V c main_arg4) (V c main_arg5) (fun q => V c main_v21 (ix2 0 q))) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := index_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  refine (payload_eq_hidden (iblk0 V c 0 t) (iblk0 V c 1 t) (iblk0 V c 2 t) (iblk0 V c 3 t) (iblk0 V c 4 t)
    (V c main_arg0) (V c main_v20) (V c main_arg4) (V c main_arg5) (V c main_v21)
    ⟨t.val * 5000 + p.val, by omega⟩ p q ?_ ?_ ?_ ?_ ?_).trans (congrArg _ hemb.symm)
  · intro k
    show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_v20 (((cfg0.win 1).blk t).view.emb (ix2 p k)) = V c main_v20 (ix2 _ k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · funext y
    show V c main_arg4 (((cfg0.win 2).blk t).view.emb y) = V c main_arg4 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg5 (((cfg0.win 3).blk t).view.emb y) = V c main_arg5 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v21 (((cfg0.win 4).blk t).view.emb y) = V c main_v21 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the output array is in grid point `t`'s block exactly when, on each axis, its coordinate is in the
    block's range: from block index times block size, for one block size. -/
theorem mem_block (t : Fin cfg0.N) (i : S100000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v22).slice (win0_5.rect t)).set ↔ _
  rw [View.set_slice_whole, Rect.mem_set_unit]
  exact Iff.rfl

/-- The 20 blocks of 5000 rows tile the 100000 rows: row `r` lies in the block of point `r / 5000`, and every
    point writes its block back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < 20 := by omega
  obtain ⟨-, -, -, -, -, -, -, -, -, -, e50, e51⟩ := index_facts ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_block]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- The output array after all 20 points is the hidden matrix of the region's input arrays: every point writes
    back its block of that matrix, and the blocks cover the array. -/
theorem arr_eq (c : Dev nD) :
    (dat0 (F := Ideal) V c).arrAt 5 cfg0.N
      = Cert.Sage.hidden (V c main_arg0) (V c main_v20) (V c main_arg4) (V c main_arg5) (fun q => V c main_v21 (ix2 0 q)) :=
  (dat0 (F := Ideal) V c).arrAt_eq_of_cover 5 _ (fun t _ => flushed_eq V c t) cover

end Cert.KernelIdeal.Region0

end
-- ==== Proof.KRegion1.lean ====
/-
  The second region's output array is the sampled code of its input arrays.

  Over 20 row blocks of 5000 rows, each grid point stores, at entry (p, q) of its block, the mean branch's affine
  part plus the noise times the exponential of the deviation branch's affine part; an affine part is the hidden row
  times the self weights plus the neighbour-mean row times the neighbour weights (two 128-term sums) plus the bias at q.
  Row p of block t is row 5000 t + p of the hidden matrix, of the neighbour mean, of the noise and of the output; the
  weight matrices and the bias rows are read whole at every point. Every row r of the 100000 lies in the block of
  point r / 5000, so the blocks written back make up the whole array.
-/
import proofs.«124804_j24000277250672_1_alg».proof.Proof.Gen.KernelIdeal.Frame
import proofs.«124804_j24000277250672_1_alg».proof.Proof.Spec
import proofs.«124804_j24000277250672_1_alg».proof.Proof.LibPlainDot
import Idealize.ShloMosaic.Lib.Pipeline.Value
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The bias row, a [1, 64] block, spread over the 5000 rows: entry (p, q) reads the row's entry (0, q). -/
theorem biasRow_apply (b : Vec Ideal S1x64 .f32) (p : Fin 5000) (q : Fin 64) :
    broadcastTo S5000x64 b broadcasts_S1x64_S5000x64 (ix2 p q) = b (ix2 0 q) := by
  refine broadcastTo_apply b _ (ix2 p q) (ix2 0 q) fun a => ?_
  match a with
  | ⟨0, _⟩ => rfl
  | ⟨1, _⟩ => rfl

/-- The stored value of one row block at entry (p, q): the mean branch's affine part plus the noise times the
    exponential of the deviation branch's affine part, each affine part the two 128-term products summed, then the bias. -/
theorem pay_apply (h agg : Vec Ideal S5000x128 .f32) (ws1 wn1 ws2 wn2 : Vec Ideal S128x64 .f32)
    (b1 b2 : Vec Ideal S1x64 .f32) (noise : Vec Ideal S5000x64 .f32) (p : Fin 5000) (q : Fin 64) :
    k1_pay1 h agg ws1 wn1 ws2 wn2 b1 b2 noise (ix2 p q)
      = (((∑ k : Fin 128, h (ix2 p k) * ws1 (ix2 k q)) + ∑ k : Fin 128, agg (ix2 p k) * wn1 (ix2 k q)) + b1 (ix2 0 q))
        + noise (ix2 p q) * Ideal.exp
            (((∑ k : Fin 128, h (ix2 p k) * ws2 (ix2 k q)) + ∑ k : Fin 128, agg (ix2 p k) * wn2 (ix2 k q)) + b2 (ix2 0 q)) := by
  unfold k1_pay1
  simp only [shapeCast_self, addf_apply, mulf_apply, biasRow_apply, exp, Ideal.exp_def,
    Cert.PlainDot.matmul_zero_apply dot_S5000x128_S128x64_S5000x64_1_0_0_1_n_n rfl none, truncf_apply]
  rw [biasRow_apply b1 p q, biasRow_apply b2 p q]

/-- The zero offsets of a whole-block access, as the constant function. -/
theorem zero_offsets : (![0, 0] : Fin 2 → Nat) = fun _ => 0 := funext fun a => by fin_cases a <;> rfl

/-- Row `p` of the row block at grid point `t` is row `5000 t + p` of the whole array. -/
def blockRow (t : Fin cfg1.N) (p : Fin 5000) : Fin 100000 :=
  ⟨t.val * 5000 + p.val, by have ht := t.isLt; have hN : cfg1.N = 20 := rfl; have hp := p.isLt; omega⟩

/-- One entry of a row block's stored value is the sampled code at the entry of the whole arrays it stands for, when
    the block's operands agree there with the whole arrays: the hidden and neighbour-mean rows `p` with rows `r`, the
    four weight blocks with the weight matrices on column `q`, the bias rows at `q`, the noise at `(p, q)` with `(r, q)`. -/
theorem entry_eq (H A : Cert.Sage.Mat 100000 128) (Ws1 Wn1 Ws2 Wn2 : Cert.Sage.Mat 128 64) (B1 B2 : Cert.Sage.Mat 1 64)
    (Nz : Cert.Sage.Mat 100000 64)
    (x0 x1 : Vec Ideal S5000x128 .f32) (x2 x3 : Vec Ideal S128x64 .f32) (x4 : Vec Ideal S1x64 .f32)
    (x5 x6 : Vec Ideal S128x64 .f32) (x7 : Vec Ideal S1x64 .f32) (x8 : Vec Ideal S5000x64 .f32)
    (r : Fin 100000) (p : Fin 5000) (q : Fin 64) (i : S100000x64.Idx) (hi : i = ix2 r q)
    (h0 : ∀ k : Fin 128, x0 (ix2 p k) = H (ix2 r k)) (h1 : ∀ k : Fin 128, x1 (ix2 p k) = A (ix2 r k))
    (h2 : ∀ k : Fin 128, x2 (ix2 k q) = Ws1 (ix2 k q)) (h3 : ∀ k : Fin 128, x3 (ix2 k q) = Wn1 (ix2 k q))
    (h4 : x4 (ix2 0 q) = B1 (ix2 0 q))
    (h5 : ∀ k : Fin 128, x5 (ix2 k q) = Ws2 (ix2 k q)) (h6 : ∀ k : Fin 128, x6 (ix2 k q) = Wn2 (ix2 k q))
    (h7 : x7 (ix2 0 q) = B2 (ix2 0 q)) (h8 : x8 (ix2 p q) = Nz (ix2 r q)) :
    k1_pay1 x0 x1 x2 x3 x5 x6 x4 x7 x8 (ix2 p q)
      = Cert.Sage.sample H A Ws1 Wn1 (fun q => B1 (ix2 0 q)) Ws2 Wn2 (fun q => B2 (ix2 0 q)) Nz i := by
  rw [hi, pay_apply, Cert.Sage.sample_apply]
  simp only [h0, h1, h2, h3, h4, h5, h6, h7, h8]

/-- A function on a row block's entries is determined by its values at the entries `(p, q)`. -/
theorem block_ext {α : Type} (X Y : S5000x64.Idx → α) (h : ∀ (p : Fin 5000) (q : Fin 64), X (ix2 p q) = Y (ix2 p q)) : X = Y :=
  funext fun j => by rw [eq_ix2 j]; exact h _ _

/-- The block index of every window at every grid point: the row-blocked windows (hidden matrix, neighbour mean,
    noise, output) sit at block `(t, 0)`, the weight and bias windows at block `(0, 0)`. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

variable (V : (c : Dev nD) → (b : Ref sig .tc) → Buf (Elt Ideal) ((c : Thread nD τ).loc b))

/-- What grid point `t` writes back is the row block `t` of the sampled code of the region's input arrays. -/
theorem flushed_eq (c : Dev nD) (t : Fin cfg1.N) :
    (dat1 (F := Ideal) V c).flushed 9 t = ((cfg1.win 9).blk t).view.read (Elt Ideal)
      (Cert.Sage.sample (V c main_v22) (V c main_v35) (V c main_arg7) (V c main_arg8) (fun q => V c main_v36 (ix2 0 q))
          (V c main_arg10) (V c main_arg11) (fun q => V c main_v37 (ix2 0 q)) (V c main_arg3)) := by
  show (cfg1.win 9).cut (grid1.coords t) ((dat1 V c).after 9 t) = _
  rw [after1_9]
  unfold out1_9
  rw [View.canon_unit_zero zero_offsets]
  simp only [View.ld_unit_zero (S := S5000x128) zero_offsets, View.ld_unit_zero (S := S128x64) zero_offsets,
    View.ld_unit_zero (S := S1x64) zero_offsets, View.ld_unit_zero (S := S5000x64) zero_offsets]
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩⟩ :=
    block_index t
  refine block_ext _ _ fun p q => ?_
  refine entry_eq (V c main_v22) (V c main_v35) (V c main_arg7) (V c main_arg8) (V c main_arg10) (V c main_arg11)
    (V c main_v36) (V c main_v37) (V c main_arg3)
    (iblk1 V c 0 t) (iblk1 V c 1 t) (iblk1 V c 2 t) (iblk1 V c 3 t) (iblk1 V c 4 t) (iblk1 V c 5 t) (iblk1 V c 6 t)
    (iblk1 V c 7 t) (iblk1 V c 8 t) (blockRow t p) p q _ ?_ ?_ ?_ ?_ ?_ ?_ ?_ ?_ ?_ ?_
  · -- the output block's entry (p, q) is the array's entry (5000 t + p, q)
    funext a; apply Fin.ext
    match a with
    | ⟨0, _⟩ => show win1_9.index t (0 : Fin 2) * 5000 + 1 * p.val = t.val * 5000 + p.val; rw [e90]; omega
    | ⟨1, _⟩ => show win1_9.index t (1 : Fin 2) * 64 + 1 * q.val = q.val; rw [e91]; omega
  · -- hidden matrix: block row p is array row 5000 t + p
    intro k
    show V c main_v22 (((cfg1.win 0).blk t).view.emb (ix2 p k)) = V c main_v22 (ix2 (blockRow t p) k)
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · -- neighbour mean: the same rows
    intro k
    show V c main_v35 (((cfg1.win 1).blk t).view.emb (ix2 p k)) = V c main_v35 (ix2 (blockRow t p) k)
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  · -- mean-branch self weights, read whole
    intro k
    show V c main_arg7 (((cfg1.win 2).blk t).view.emb (ix2 k q)) = V c main_arg7 (ix2 k q)
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 64 + 1 * q.val = q.val; rw [e21]; omega
  · -- mean-branch neighbour weights, read whole
    intro k
    show V c main_arg8 (((cfg1.win 3).blk t).view.emb (ix2 k q)) = V c main_arg8 (ix2 k q)
    refine congrArg _ (funext fun a => Fin.ext ?_)
    match a with
    | ⟨0, _⟩ => show win1_3.index t (0 : Fin 2) * 128 + 1 * k.val = k.val; rw [e30]; omega
    | ⟨1, _⟩ => show win1_3.index t (1 : Fin 2) * 64 + 1 * q.val = q.val; rw [e31]; omega
  · -- mean-branch bias row, read whole
    show V c main_v36 (((cfg1.win 4).blk t).view.emb (ix2 0 q)) = V c main_v36 (ix2 0 q)
    refine congrArg _ (funext fun a => Fin.ext ?_)
    match a with
    | ⟨0, _⟩ => show win1_4.index t (0 : Fin 2) * 1 + 1 * 0 = 0; rw [e40]
    | ⟨1, _⟩ => show win1_4.index t (1 : Fin 2) * 64 + 1 * q.val = q.val; rw [e41]; omega
  · -- deviation-branch self weights, read whole
    intro k
    show V c main_arg10 (((cfg1.win 5).blk t).view.emb (ix2 k q)) = V c main_arg10 (ix2 k q)
    refine congrArg _ (funext fun a => Fin.ext ?_)
    match a with
    | ⟨0, _⟩ => show win1_5.index t (0 : Fin 2) * 128 + 1 * k.val = k.val; rw [e50]; omega
    | ⟨1, _⟩ => show win1_5.index t (1 : Fin 2) * 64 + 1 * q.val = q.val; rw [e51]; omega
  · -- deviation-branch neighbour weights, read whole
    intro k
    show V c main_arg11 (((cfg1.win 6).blk t).view.emb (ix2 k q)) = V c main_arg11 (ix2 k q)
    refine congrArg _ (funext fun a => Fin.ext ?_)
    match a with
    | ⟨0, _⟩ => show win1_6.index t (0 : Fin 2) * 128 + 1 * k.val = k.val; rw [e60]; omega
    | ⟨1, _⟩ => show win1_6.index t (1 : Fin 2) * 64 + 1 * q.val = q.val; rw [e61]; omega
  · -- deviation-branch bias row, read whole
    show V c main_v37 (((cfg1.win 7).blk t).view.emb (ix2 0 q)) = V c main_v37 (ix2 0 q)
    refine congrArg _ (funext fun a => Fin.ext ?_)
    match a with
    | ⟨0, _⟩ => show win1_7.index t (0 : Fin 2) * 1 + 1 * 0 = 0; rw [e70]
    | ⟨1, _⟩ => show win1_7.index t (1 : Fin 2) * 64 + 1 * q.val = q.val; rw [e71]; omega
  · -- noise: block entry (p, q) is array entry (5000 t + p, q)
    show V c main_arg3 (((cfg1.win 8).blk t).view.emb (ix2 p q)) = V c main_arg3 (ix2 (blockRow t p) q)
    refine congrArg _ (funext fun a => Fin.ext ?_)
    match a with
    | ⟨0, _⟩ => show win1_8.index t (0 : Fin 2) * 5000 + 1 * p.val = t.val * 5000 + p.val; rw [e80]; omega
    | ⟨1, _⟩ => show win1_8.index t (1 : Fin 2) * 64 + 1 * q.val = q.val; rw [e81]; omega

/-- An entry of the output array lies in grid point `t`'s block iff on each axis its coordinate lies in the block's range. -/
theorem mem_blk (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v38).slice (win1_9.rect t)).set ↔ _
  rw [View.set_slice_whole, Rect.mem_set_unit]
  exact Iff.rfl

/-- Every entry of the output array lies in some grid point's block: row `r` in the block of point `r / 5000`. -/
theorem cover (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  have hN : cfg1.N = 20 := rfl
  refine ⟨⟨(i 0).val / 5000, by omega⟩, flush1_9 _, ?_⟩
  rw [mem_blk]
  obtain ⟨-, -, -, -, -, -, -, -, -, e90, e91⟩ := block_index ⟨(i 0).val / 5000, by omega⟩
  intro a
  match a with
  | ⟨0, _⟩ =>
    show win1_9.index ⟨(i 0).val / 5000, _⟩ (0 : Fin 2) * 5000 ≤ (i 0).val ∧ (i 0).val < win1_9.index ⟨(i 0).val / 5000, _⟩ (0 : Fin 2) * 5000 + 5000
    rw [e90]; show (i 0).val / 5000 * 5000 ≤ (i 0).val ∧ (i 0).val < (i 0).val / 5000 * 5000 + 5000; omega
  | ⟨1, _⟩ =>
    show win1_9.index ⟨(i 0).val / 5000, _⟩ (1 : Fin 2) * 64 ≤ (i 1).val ∧ (i 1).val < win1_9.index ⟨(i 0).val / 5000, _⟩ (1 : Fin 2) * 64 + 64
    rw [e91]; omega

/-- After all 20 grid points the output array holds the sampled code of the region's input arrays. -/
theorem arr_eq (c : Dev nD) :
    (dat1 (F := Ideal) V c).arrAt 9 cfg1.N
      = Cert.Sage.sample (V c main_v22) (V c main_v35) (V c main_arg7) (V c main_arg8) (fun q => V c main_v36 (ix2 0 q))
          (V c main_arg10) (V c main_arg11) (fun q => V c main_v37 (ix2 0 q)) (V c main_arg3) :=
  (dat1 V c).arrAt_eq_of_cover 9 _ (fun t _ => flushed_eq V c t) cover

end Cert.KernelIdeal.Region1

end
-- ==== Proof.KValue.lean ====
import proofs.«124804_j24000277250672_1_alg».proof.Proof.KRun
import proofs.«124804_j24000277250672_1_alg».proof.Proof.KHost
import proofs.«124804_j24000277250672_1_alg».proof.Proof.KRegion0
import proofs.«124804_j24000277250672_1_alg».proof.Proof.KRegion1
import proofs.«124804_j24000277250672_1_alg».proof.Proof.Spec

set_option maxRecDepth 16384

noncomputable section

namespace Cert.KernelIdeal.KValue

open Cert.KernelIdeal Cert.KernelIdeal.Gen Cert.KernelIdeal.Host
open Idealize.ShloMosaic Idealize.ShloMosaic.TcCoe Idealize.ShloMosaic.ValueIdx Idealize.SL.Sem

variable (m : (ℓ : Loc nD τ sig) → Buf (Elt Ideal) ℓ) (ρ : Dev nD → PrngReg)

/-- The hidden matrix as the kernel program forms it: the first layer over the features and their neighbour
    mean, clamped below at zero. -/
def hidK (c : Dev nD) : Cert.Sage.Mat 100000 128 :=
  Cert.Sage.hidden (m ((c : Thread nD τ).loc main_arg0)) (aggK (m ((c : Thread nD τ).loc main_arg0)) (m ((c : Thread nD τ).loc main_arg1)) (m ((c : Thread nD τ).loc main_arg2))) (m ((c : Thread nD τ).loc main_arg4)) (m ((c : Thread nD τ).loc main_arg5)) (fun q => (m ((c : Thread nD τ).loc main_arg6)) (ix1 q))

/-- What the first region leaves in its output array, in the launch arrays: the region's function of what it finds,
    and what it finds is what the first host stretch left. -/
theorem hidden_eq (c : Dev nD) : (dat0 (F := Ideal) (V1 m ρ) c).arrAt 5 cfg0.N = hidK m c :=
  (Region0.arr_eq (V1 m ρ) c).trans (by
    unfold hidK
    rw [show V1 m ρ c main_arg0 = _ from W1_arg0 m ρ c, V1_v20, show V1 m ρ c main_arg4 = _ from W1_arg4 m ρ c,
      show V1 m ρ c main_arg5 = _ from W1_arg5 m ρ c,
      show (fun q => V1 m ρ c main_v21 (ix2 0 q)) = _ from funext (V1_v21_apply m ρ c)])

/-- The result array after the run, in the launch arrays: the sampled code of the hidden matrix and of the hidden
    matrix's neighbour mean. -/
theorem value (c : Dev nD) : W4 m ρ c (Proc.devRef .tc main_v38)
    = Cert.Sage.sample (hidK m c) (aggK (hidK m c) (m ((c : Thread nD τ).loc main_arg1)) (m ((c : Thread nD τ).loc main_arg2))) (m ((c : Thread nD τ).loc main_arg7)) (m ((c : Thread nD τ).loc main_arg8)) (fun q => (m ((c : Thread nD τ).loc main_arg9)) (ix1 q))
        (m ((c : Thread nD τ).loc main_arg10)) (m ((c : Thread nD τ).loc main_arg11)) (fun q => (m ((c : Thread nD τ).loc main_arg12)) (ix1 q)) (m ((c : Thread nD τ).loc main_arg3)) :=
  (W4_arr m ρ c 9).trans ((Region1.arr_eq (V3 m ρ) c).trans (by
    rw [V3_v22, V3_v35, hidden_eq, V3_arg7, V3_arg8, V3_arg10, V3_arg11, V3_arg3,
      show (fun q => V3 m ρ c main_v36 (ix2 0 q)) = _ from funext (V3_v36_apply m ρ c),
      show (fun q => V3 m ρ c main_v37 (ix2 0 q)) = _ from funext (V3_v37_apply m ρ c)]))

/-- The kernel program's run with its result named as that function of the launch arrays. -/
theorem run : θ_run defs (onTc (τ := τ) (main (F := Ideal))) ⟨m, fun _ => 0, ρ⟩ (fun r => ∀ c : Dev nD,
      r.2.mem ((c.tc : Thread nD τ).loc main_v38)
        = Cert.Sage.sample (hidK m c) (aggK (hidK m c) (m ((c : Thread nD τ).loc main_arg1)) (m ((c : Thread nD τ).loc main_arg2))) (m ((c : Thread nD τ).loc main_arg7)) (m ((c : Thread nD τ).loc main_arg8)) (fun q => (m ((c : Thread nD τ).loc main_arg9)) (ix1 q))
            (m ((c : Thread nD τ).loc main_arg10)) (m ((c : Thread nD τ).loc main_arg11)) (fun q => (m ((c : Thread nD τ).loc main_arg12)) (ix1 q)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (value m ρ c), (h c).2⟩) (Run.run_named m ρ)

end Cert.KernelIdeal.KValue

end
-- ==== Proof.RValue.lean ====
import proofs.«124804_j24000277250672_1_alg».proof.Proof.Gen.ReferenceIdeal.Run
import proofs.«124804_j24000277250672_1_alg».proof.Proof.Gen.ReferenceIdeal.Read
import proofs.«124804_j24000277250672_1_alg».proof.Proof.Spec
import proofs.«124804_j24000277250672_1_alg».proof.Proof.LibPlainDot
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- The source-node column: a negative edge source is counted from the end (one wrap), then every edge's source
    stands as a one-entry row. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per destination node, the sum over its incoming edges of the source nodes' rows of `y`. -/
def rowSum (y : FVec Ideal S100000x128 .f32) (src dst : IVec S1600000 32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 y (srcIdx src))

/-- Per destination node, its in-degree clamped below at one. -/
def degClamped (dst : IVec S1600000 32) : FVec Ideal S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- A per-node quantity repeated along every feature column. -/
def spread (d : FVec Ideal S100000 .f32) : FVec Ideal S100000x128 .f32 :=
  broadcastInDim S100000x128 ![0, 1] bcast_S100000x1_S100000x128_0_1 (broadcastInDim S100000x1 ![0] bcast_S100000_S100000x1_0 d)

/-- The neighbour mean as this program forms it: the row sum divided by the clamped in-degree. -/
def aggR (y : FVec Ideal S100000x128 .f32) (src dst : IVec S1600000 32) :
    FVec Ideal S100000x128 .f32 :=
  Host.divf (rowSum y src dst) (spread (degClamped dst))

/-! ## The layout pieces read at an entry -/

/-- The zero word spread over the whole matrix reads the zero word's value at every entry. -/
theorem zeroMat_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 (constant (F := Ideal) S_ .f32 0x00000000#32) i (fun a => a.elim0)
    (fun a => a.elim0)

/-- A bias row of width 128 repeated down the rows: entry `(r, q)` is the bias at `q`. -/
theorem bias128_apply (b : FVec Ideal S128 .f32) (r : Fin 100000) (q : Fin 128) :
    broadcastInDim S100000x128 ![0, 1] bcast_S1x128_S100000x128_0_1
        (broadcastInDim S1x128 ![1] bcast_S128_S1x128_1 b) (ix2 r q) = b (ix1 q) := by
  rw [broadcastInDim_apply _ bcast_S1x128_S100000x128_0_1 _ (ix2 r q) (ix2 (⟨0, Nat.one_pos⟩ : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])]
  exact broadcastInDim_apply _ bcast_S128_S1x128_1 b (ix2 (⟨0, Nat.one_pos⟩ : Fin 1) q) (ix1 q) (fun a => match a with
    | ⟨0, _⟩ => by show q.val = if (128 : Nat) = 1 then 0 else q.val; rw [if_neg (by decide)])

/-- A bias row of width 64 repeated down the rows: entry `(r, q)` is the bias at `q`. -/
theorem bias64_apply (b : FVec Ideal S64 .f32) (r : Fin 100000) (q : Fin 64) :
    broadcastInDim S100000x64 ![0, 1] bcast_S1x64_S100000x64_0_1
        (broadcastInDim S1x64 ![1] bcast_S64_S1x64_1 b) (ix2 r q) = b (ix1 q) := by
  rw [broadcastInDim_apply _ bcast_S1x64_S100000x64_0_1 _ (ix2 r q) (ix2 (⟨0, Nat.one_pos⟩ : Fin 1) q)
    (fun a => match a with
      | ⟨0, _⟩ => by show 0 = if (1 : Nat) = 1 then 0 else r.val; rw [if_pos rfl]
      | ⟨1, _⟩ => by show q.val = if (64 : Nat) = 1 then 0 else q.val; rw [if_neg (by decide)])]
  exact broadcastInDim_apply _ bcast_S64_S1x64_1 b (ix2 (⟨0, Nat.one_pos⟩ : Fin 1) q) (ix1 q) (fun a => match a with
    | ⟨0, _⟩ => by show q.val = if (64 : Nat) = 1 then 0 else q.val; rw [if_neg (by decide)])

/-- The exponential of an array reads the exponential of the entry. -/
theorem hostExp_apply {s : Shape} {φ : FTy} (x : FVec Ideal s φ) (i : s.Idx) : Host.exp x i = Ideal.exp (x i) := rfl

/-! ## The two layers as whole arrays -/

/-- The hidden layer as the program spells it (two products, the repeated bias, the clamp at the spread zero word) is
    the hidden matrix of the mathematics: entry `(r, q)` reads row `r` of the features and of the neighbour mean, column
    `q` of the two weight matrices, and the bias at `q`. -/
theorem hidden_arr (X A : FVec Ideal S100000x128 .f32) (ws wn : FVec Ideal S128x128 .f32) (b : FVec Ideal S128 .f32) :
    maximumf
        (addf
          (addf (Host.dotGeneral dot_S100000x128_S128x128_S100000x128_1_0_0_1_n_n none X ws)
            (Host.dotGeneral dot_S100000x128_S128x128_S100000x128_1_0_0_1_n_n none A wn))
          (broadcastInDim S100000x128 ![0, 1] bcast_S1x128_S100000x128_0_1
            (broadcastInDim S1x128 ![1] bcast_S128_S1x128_1 b)))
        (broadcastInDim S100000x128 ![] bcast_S_S100000x128 (constant S_ .f32 0x00000000#32))
      = Cert.Sage.hidden X A ws wn (fun q => b (ix1 q)) := by
  funext i
  obtain ⟨r, q, rfl⟩ : ∃ r q, i = ix2 r q := ⟨i 0, i 1, eq_ix2 i⟩
  rw [Cert.Sage.hidden_apply, maximumf_apply, addf_apply, addf_apply,
    Cert.PlainDot.dotGeneral_apply dot_S100000x128_S128x128_S100000x128_1_0_0_1_n_n rfl,
    Cert.PlainDot.dotGeneral_apply dot_S100000x128_S128x128_S100000x128_1_0_0_1_n_n rfl, bias128_apply, zeroMat_apply]

/-- The output layer as the program spells it (the mean branch plus the noise times the exponential of the
    log-deviation branch, each branch two products and a repeated bias over the same two matrices) is the sampled
    code of the mathematics. -/
theorem sample_arr (H A : FVec Ideal S100000x128 .f32) (ws1 wn1 : FVec Ideal S128x64 .f32) (b1 : FVec Ideal S64 .f32)
    (ws2 wn2 : FVec Ideal S128x64 .f32) (b2 : FVec Ideal S64 .f32) (noise : FVec Ideal S100000x64 .f32) :
    addf
        (addf
          (addf (Host.dotGeneral dot_S100000x128_S128x64_S100000x64_1_0_0_1_n_n none H ws1)
            (Host.dotGeneral dot_S100000x128_S128x64_S100000x64_1_0_0_1_n_n none A wn1))
          (broadcastInDim S100000x64 ![0, 1] bcast_S1x64_S100000x64_0_1
            (broadcastInDim S1x64 ![1] bcast_S64_S1x64_1 b1)))
        (mulf noise
          (Host.exp
            (addf
              (addf (Host.dotGeneral dot_S100000x128_S128x64_S100000x64_1_0_0_1_n_n none H ws2)
                (Host.dotGeneral dot_S100000x128_S128x64_S100000x64_1_0_0_1_n_n none A wn2))
              (broadcastInDim S100000x64 ![0, 1] bcast_S1x64_S100000x64_0_1
                (broadcastInDim S1x64 ![1] bcast_S64_S1x64_1 b2)))))
      = Cert.Sage.sample H A ws1 wn1 (fun q => b1 (ix1 q)) ws2 wn2 (fun q => b2 (ix1 q)) noise := by
  funext i
  obtain ⟨r, q, rfl⟩ : ∃ r q, i = ix2 r q := ⟨i 0, i 1, eq_ix2 i⟩
  rw [Cert.Sage.sample_apply, addf_apply, addf_apply, addf_apply, mulf_apply, hostExp_apply, addf_apply, addf_apply,
    Cert.PlainDot.dotGeneral_apply dot_S100000x128_S128x64_S100000x64_1_0_0_1_n_n rfl,
    Cert.PlainDot.dotGeneral_apply dot_S100000x128_S128x64_S100000x64_1_0_0_1_n_n rfl,
    Cert.PlainDot.dotGeneral_apply dot_S100000x128_S128x64_S100000x64_1_0_0_1_n_n rfl,
    Cert.PlainDot.dotGeneral_apply dot_S100000x128_S128x64_S100000x64_1_0_0_1_n_n rfl, bias64_apply, bias64_apply]

variable (m : (ℓ : Loc nD τ sig) → Buf (Elt Ideal) ℓ) (c : Dev nD)

/-- The hidden matrix as the reference's run has it. -/
def hid : Cert.Sage.Mat 100000 128 :=
  Cert.Sage.hidden (m ((c.tc : Thread nD τ).loc main_arg0))
    (aggR (m ((c.tc : Thread nD τ).loc main_arg0)) (m ((c.tc : Thread nD τ).loc main_arg1)) (m ((c.tc : Thread nD τ).loc main_arg2)))
    (m ((c.tc : Thread nD τ).loc main_arg4)) (m ((c.tc : Thread nD τ).loc main_arg5))
    (fun q => m ((c.tc : Thread nD τ).loc main_arg6) (ix1 q))

/-- The reference's result array is the sampled code of the hidden matrix and its neighbour mean. -/
theorem result_eq :
    Value.res_out0 (F := Ideal) m c
      = Cert.Sage.sample (hid m c)
          (aggR (hid m c) (m ((c.tc : Thread nD τ).loc main_arg1)) (m ((c.tc : Thread nD τ).loc main_arg2)))
          (m ((c.tc : Thread nD τ).loc main_arg7)) (m ((c.tc : Thread nD τ).loc main_arg8))
          (fun q => m ((c.tc : Thread nD τ).loc main_arg9) (ix1 q))
          (m ((c.tc : Thread nD τ).loc main_arg10)) (m ((c.tc : Thread nD τ).loc main_arg11))
          (fun q => m ((c.tc : Thread nD τ).loc main_arg12) (ix1 q))
          (m ((c.tc : Thread nD τ).loc main_arg3)) := by
  -- The output layer, read over the hidden matrix and that matrix's neighbour mean, is the sampled code.
  refine Eq.trans ?_ (sample_arr (hid m c)
    (aggR (hid m c) (m ((c.tc : Thread nD τ).loc main_arg1)) (m ((c.tc : Thread nD τ).loc main_arg2)))
    (m ((c.tc : Thread nD τ).loc main_arg7)) (m ((c.tc : Thread nD τ).loc main_arg8))
    (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg3)))
  -- The hidden matrix is the clamped affine array of the features and their neighbour mean, at each place it stands.
  rw [hid, ← hidden_arr (m ((c.tc : Thread nD τ).loc main_arg0))
    (aggR (m ((c.tc : Thread nD τ).loc main_arg0)) (m ((c.tc : Thread nD τ).loc main_arg1)) (m ((c.tc : Thread nD τ).loc main_arg2)))
    (m ((c.tc : Thread nD τ).loc main_arg4)) (m ((c.tc : Thread nD τ).loc main_arg5))
    (m ((c.tc : Thread nD τ).loc main_arg6))]
  -- Both sides are now the same term: each neighbour mean is the row sum divided by the spread clamped in-degree.
  rfl

end Cert.ReferenceIdeal.RefValue

end
-- ==== Proof.Agg.lean ====
import proofs.«124804_j24000277250672_1_alg».proof.Proof.KHost
import proofs.«124804_j24000277250672_1_alg».proof.Proof.RValue
import proofs.«124804_j24000277250672_1_alg».proof.Proof.Spec
import Idealize.ShloMosaic.Lib.Pipeline.Value
import Idealize.ShloMosaic.Lib.ValueIdx

set_option maxRecDepth 16384

noncomputable section

namespace Cert.Join

open Idealize.ShloMosaic Idealize.ShloMosaic.TcCoe Idealize.ShloMosaic.ValueIdx

/-! ## The neighbour mean, both ways

Both programs form the same row sum (gather the source nodes' rows along the edges, scatter-add them at the
destination nodes) and the same clamped in-degree; their records for the gather and the two scatters spell the
same dimension numbers. The kernel program multiplies the row sum by the reciprocal of the clamped in-degree, the
reference divides the row sum by it. -/

/-- The two programs' row sums are one term. -/
theorem rowSum_eq (y : FVec Ideal Cert.KernelIdeal.S100000x128 .f32) (src dst : IVec Cert.KernelIdeal.S1600000 32) :
    Cert.KernelIdeal.Host.rowSum (F := Ideal) y src dst = Cert.ReferenceIdeal.RefValue.rowSum y src dst := rfl

/-- So are their clamped in-degrees. -/
theorem degClamped_eq (dst : IVec Cert.KernelIdeal.S1600000 32) :
    Cert.KernelIdeal.Host.degClamped (F := Ideal) dst = Cert.ReferenceIdeal.RefValue.degClamped dst := rfl

/-- And the spreading of a per-node quantity along the columns. -/
theorem spread_eq (d : FVec Ideal Cert.KernelIdeal.S100000 .f32) : Cert.KernelIdeal.Host.spread (F := Ideal) d = Cert.ReferenceIdeal.RefValue.spread d := rfl

/-- A per-node quantity spread along the columns, read at `(r, k)`, is the quantity at node `r`. -/
theorem spread_apply (d : FVec Ideal Cert.ReferenceIdeal.S100000 .f32) (r : Fin 100000) (k : Fin 128) :
    Cert.ReferenceIdeal.RefValue.spread d (ix2 r k) = d (ix1 r) := by
  unfold Cert.ReferenceIdeal.RefValue.spread
  rw [broadcastInDim_apply _ _ _ (ix2 r k) (ix2 r (0 : Fin 1)) (fun a => by match a with | ⟨0, _⟩ => rfl | ⟨1, _⟩ => rfl)]
  rw [broadcastInDim_apply _ _ _ (ix2 r (0 : Fin 1)) (ix1 r) (fun a => by match a with | ⟨0, _⟩ => rfl)]

/-- The host's quotient of two arrays, read at an index. -/
theorem hostDivf_apply {s : Shape} {φ : FTy} (a b : FVec Ideal s φ) (i : s.Idx) :
    Host.divf a b i = Ideal.div (a i) (b i) := rfl

/-- A scalar word repeated along the nodes, read at a node. -/
theorem splat_apply {n : ℕ} (h : (⟨0, ![]⟩ : Shape).BroadcastsInDim ⟨1, ![n]⟩ ![]) (b : BitVec 32) (r : Fin n) :
    broadcastInDim (⟨1, ![n]⟩ : Shape) ![] h (constant (F := Ideal) (⟨0, ![]⟩ : Shape) .f32 b) (ix1 r) = Ideal.ofBits .f32 b := by
  rw [broadcastInDim_apply _ _ _ (ix1 r) ix0 (fun a => a.elim0)]
  rfl

/-- The clamped in-degree is not zero: it is at least one. -/
theorem degClamped_ne_zero (dst : IVec Cert.ReferenceIdeal.S1600000 32) (r : Fin 100000) :
    Cert.ReferenceIdeal.RefValue.degClamped dst (ix1 r) ≠ 0 := by
  unfold Cert.ReferenceIdeal.RefValue.degClamped
  rw [maximumf_apply, splat_apply]
  exact Cert.Sage.max_one_ne_zero _

/-- THE LAW: the row sum times the reciprocal of the clamped in-degree is the row sum divided by it, entry by entry,
    because the clamped in-degree is at least one and so not zero. -/
theorem agg_eq (y : FVec Ideal Cert.KernelIdeal.S100000x128 .f32) (src dst : IVec Cert.KernelIdeal.S1600000 32) :
    Cert.KernelIdeal.Host.aggK (F := Ideal) y src dst = Cert.ReferenceIdeal.RefValue.aggR y src dst := by
  unfold Cert.KernelIdeal.Host.aggK Cert.ReferenceIdeal.RefValue.aggR
  rw [rowSum_eq, spread_eq]
  funext i
  obtain ⟨r, k, rfl⟩ : ∃ (r : Fin 100000) (k : Fin 128), i = ix2 r k := ⟨i 0, i 1, eq_ix2 i⟩
  rw [mulf_apply, hostDivf_apply, spread_apply, spread_apply]
  unfold Cert.KernelIdeal.Host.invDeg
  rw [hostDivf_apply, splat_apply, degClamped_eq, Cert.Sage.ofBits_one]
  exact Cert.Sage.mul_recip_eq_div _ _ (degClamped_ne_zero dst r)

end Cert.Join

end
-- ==== Proof.lean ====
/-
  Two graph-convolution layers and a reparameterised sample: the kernel program (two TensorCore regions over blocks
  of 5000 nodes, the edge gather and scatter-add on the host before each) against the plain host reference.

  At the ideal values both programs end with, at node r and code column q,
      mean(r, q) + noise(r, q) · exp(logdev(r, q)),
  where each branch is an affine layer  Σ_k h(r,k)·Wself(k,q) + Σ_k a(r,k)·Wneigh(k,q) + bias(q)  over the hidden
  matrix h = max(first affine layer of the features, 0) and its neighbour mean a. The matrix unit's product into a
  zero accumulator and the host's dot_general are the same sum over k; the changes of float format are the
  identity; the kernel's exponential and the host's are one function.

  The programs differ in the neighbour mean alone: the kernel program multiplies each node's row sum by the
  reciprocal 1 / max(deg, 1) it formed once, the reference divides the row sum by max(deg, 1). On the extended
  reals a quotient by a divisor other than zero is the product with the divisor's inverse, so the two agree
  wherever max(deg, 1) ≠ 0, which is everywhere since it is at least one. No finiteness of the inputs is used.

  The kernel program's result is read off its run region by region: the last boundary's contents at the result
  buffer are the second region's function of what that region finds; what it finds is the first region's output
  (the hidden matrix) and the second host stretch's neighbour mean of it; and so on back to the launch arrays.
-/
import proofs.«124804_j24000277250672_1_alg».proof.Defs
import proofs.«124804_j24000277250672_1_alg».proof.Proof.Gen.Kernel
import proofs.«124804_j24000277250672_1_alg».proof.Proof.Gen.Kernel.Frame
import proofs.«124804_j24000277250672_1_alg».proof.Proof.Gen.KernelIdeal
import proofs.«124804_j24000277250672_1_alg».proof.Proof.Gen.KernelIdeal.Frame
import proofs.«124804_j24000277250672_1_alg».proof.Proof.Gen.ReferenceIdeal
import proofs.«124804_j24000277250672_1_alg».proof.Proof.Gen.ReferenceIdeal.Run
import proofs.«124804_j24000277250672_1_alg».proof.Proof.Gen.Pre_finite_inputs
import proofs.«124804_j24000277250672_1_alg».proof.Proof.KValue
import proofs.«124804_j24000277250672_1_alg».proof.Proof.RValue
import proofs.«124804_j24000277250672_1_alg».proof.Proof.Agg
import Idealize.ShloMosaic.Adequacy
import Idealize.ShloMosaic.Init

set_option maxRecDepth 16384

noncomputable section

namespace Cert.Proof

open Idealize.ShloMosaic Idealize.ShloMosaic.TcCoe Idealize.SL.Sem

/-- The reference's neighbour mean is the kernel program's: the row sum divided by the clamped in-degree is the row
    sum times its reciprocal. -/
theorem agg_join (y : FVec Ideal Cert.KernelIdeal.S100000x128 .f32) (src dst : IVec Cert.KernelIdeal.S1600000 32) :
    Cert.ReferenceIdeal.RefValue.aggR y src dst = Cert.KernelIdeal.Host.aggK (F := Ideal) y src dst :=
  (Cert.Join.agg_eq y src dst).symm

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the sampled code of one hidden matrix and one neighbour mean of it, over launch arrays that
    agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  refine (Cert.ReferenceIdeal.RefValue.result_eq m' c).trans ?_
  unfold Cert.ReferenceIdeal.RefValue.hid Cert.KernelIdeal.KValue.hidK
  rw [h0, h1, h2, h3, h4, h5, h6, h7, h8, h9, h10, h11, h12, agg_join, agg_join]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
